-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x4000 : Shape := ⟨3, ![64, 512, 4000]⟩
abbrev S_ : Shape := ⟨0, ![]⟩

class Facts : Prop where
  bcast_S_S64x512x4000 : S_.BroadcastsInDim S64x512x4000 (![] : Fin 0 → Fin S64x512x4000.rank)
  reducesTo_S64x512x4000_S_d0_1_2 : S64x512x4000.ReducesTo [0, 1, 2] S_
  h_S_ : 0 < S_.numel

variable [Facts]

def fn {F : FTy → Type} [FloatOps F] (main_arg0 : FVec F S64x512x4000 .f32) : IVec S_ 1 :=
  let main_v0 : FVec F S64x512x4000 .f32 := Host.absf main_arg0
  let main_cst : FVec F S_ .f32 := constant S_ .f32 0x7F800000#32
  let main_v1 : FVec F S64x512x4000 .f32 := broadcastInDim S64x512x4000 ![] bcast_S_S64x512x4000 main_cst
  let main_v2 : IVec S64x512x4000 1 := cmpf .olt main_v0 main_v1
  let main_c : IVec S_ 1 := constantI S_ 1 1#1
  let main_v3 : IVec S_ 1 := (fun x v => Host.reduce IntOp.andi x v reducesTo_S64x512x4000_S_d0_1_2 h_S_) main_v2 main_c
  main_v3
-- ==== Kernel.lean ====
abbrev S64x512x4000 : Shape := ⟨3, ![64, 512, 4000]⟩
abbrev S64x512x400x10 : Shape := ⟨4, ![64, 512, 400, 10]⟩
abbrev S64x512x400x1 : Shape := ⟨4, ![64, 512, 400, 1]⟩
abbrev S64x512x400 : Shape := ⟨3, ![64, 512, 400]⟩
abbrev S1x256x400 : Shape := ⟨3, ![1, 256, 400]⟩

abbrev nBuf : Space → Nat
  | .hbm => 7
  | .vmem => 6
  | .smem => 0
  | _ => 0

abbrev bufTy : (tb : Table) → Fin (tcTables nBuf tb) → BufTy
  | .hbm, ⟨0, _⟩ => ⟨S64x512x4000, .f32⟩
  | .hbm, ⟨1, _⟩ => ⟨S64x512x400x10, .f32⟩
  | .hbm, ⟨2, _⟩ => ⟨S64x512x400x1, .f32⟩
  | .hbm, ⟨3, _⟩ => ⟨S64x512x400, .f32⟩
  | .hbm, ⟨4, _⟩ => ⟨S64x512x400x1, .f32⟩
  | .hbm, ⟨5, _⟩ => ⟨S64x512x400, .f32⟩
  | .hbm, ⟨6, _⟩ => ⟨S64x512x400, .f32⟩
  | .local _ .vmem, ⟨0, _⟩ => ⟨S1x256x400, .f32⟩
  | .local _ .vmem, ⟨1, _⟩ => ⟨S1x256x400, .f32⟩
  | .local _ .vmem, ⟨2, _⟩ => ⟨S1x256x400, .f32⟩
  | .local _ .vmem, ⟨3, _⟩ => ⟨S1x256x400, .f32⟩
  | .local _ .vmem, ⟨4, _⟩ => ⟨S1x256x400, .f32⟩
  | .local _ .vmem, ⟨5, _⟩ => ⟨S1x256x400, .f32⟩
  | _, _ => ⟨S64x512x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x512x4000_S64x512x400x10 : S64x512x4000.ShapeCasts S64x512x400x10
  slices_S64x512x400x10_S64x512x400x1_0_0_0_0 : S64x512x400x10.Slices ![0, 0, 0, 0] S64x512x400x1
  shapeCasts_S64x512x400x1_S64x512x400 : S64x512x400x1.ShapeCasts S64x512x400
  slices_S64x512x400x10_S64x512x400x1_0_0_0_9 : S64x512x400x10.Slices ![0, 0, 0, 9] S64x512x400x1
  inb_S1x256x400_S1x256x400_0_0_0 : ∀ a, (![0, 0, 0] : Fin 3 → Nat) a + S1x256x400.size a ≤ S1x256x400.size a
  h_S1x256x400 : 0 < S1x256x400.numel
  shapeCasts_S1x256x400_S1x256x400 : S1x256x400.ShapeCasts S1x256x400
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x400.size a ≤ S64x512x400.size a
  hwx0_0 : ∀ i : grid0.Coords, EltTy.bits .f32 = 32 ∨ (Rect.block (s := S64x512x400) S1x256x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x400.size a ≤ S64x512x400.size a
  hwx0_1 : ∀ i : grid0.Coords, EltTy.bits .f32 = 32 ∨ (Rect.block (s := S64x512x400) S1x256x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x400.size a ≤ S64x512x400.size a
  hwx0_2 : ∀ i : grid0.Coords, EltTy.bits .f32 = 32 ∨ (Rect.block (s := S64x512x400) S1x256x400.size (cc0_transform_2 i) (hinb0_2 i)).WholeWords (EltTy.packing .f32)

variable [Facts₀]

abbrev win0_0 : Pipeline.Window sig grid0 :=
  Pipeline.Window.ofSpec (Memref.whole main_v2) S1x256x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256x400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x4000 : Shape := ⟨3, ![64, 512, 4000]⟩
abbrev S400 : Shape := ⟨1, ![400]⟩
abbrev S_ : Shape := ⟨0, ![]⟩
abbrev S400x1 : Shape := ⟨2, ![400, 1]⟩
abbrev S64x512x400 : Shape := ⟨3, ![64, 512, 400]⟩

abbrev nBuf : Space → Nat
  | .hbm => 31
  | .vmem => 0
  | .smem => 0
  | _ => 0

abbrev bufTy : (tb : Table) → Fin (tcTables nBuf tb) → BufTy
  | .hbm, ⟨0, _⟩ => ⟨S64x512x4000, .f32⟩
  | .hbm, ⟨1, _⟩ => ⟨S400, .i32⟩
  | .hbm, ⟨2, _⟩ => ⟨S_, .i32⟩
  | .hbm, ⟨3, _⟩ => ⟨S400, .i32⟩
  | .hbm, ⟨4, _⟩ => ⟨S400, .i32⟩
  | .hbm, ⟨5, _⟩ => ⟨S_, .i32⟩
  | .hbm, ⟨6, _⟩ => ⟨S400, .i32⟩
  | .hbm, ⟨7, _⟩ => ⟨S400, .i1⟩
  | .hbm, ⟨8, _⟩ => ⟨S_, .i32⟩
  | .hbm, ⟨9, _⟩ => ⟨S400, .i32⟩
  | .hbm, ⟨10, _⟩ => ⟨S400, .i32⟩
  | .hbm, ⟨11, _⟩ => ⟨S400, .i32⟩
  | .hbm, ⟨12, _⟩ => ⟨S400x1, .i32⟩
  | .hbm, ⟨13, _⟩ => ⟨S64x512x400, .f32⟩
  | .hbm, ⟨14, _⟩ => ⟨S_, .i32⟩
  | .hbm, ⟨15, _⟩ => ⟨S400, .i32⟩
  | .hbm, ⟨16, _⟩ => ⟨S400, .i32⟩
  | .hbm, ⟨17, _⟩ => ⟨S_, .i32⟩
  | .hbm, ⟨18, _⟩ => ⟨S400, .i32⟩
  | .hbm, ⟨19, _⟩ => ⟨S400, .i1⟩
  | .hbm, ⟨20, _⟩ => ⟨S_, .i32⟩
  | .hbm, ⟨21, _⟩ => ⟨S400, .i32⟩
  | .hbm, ⟨22, _⟩ => ⟨S400, .i32⟩
  | .hbm, ⟨23, _⟩ => ⟨S400, .i32⟩
  | .hbm, ⟨24, _⟩ => ⟨S400x1, .i32⟩
  | .hbm, ⟨25, _⟩ => ⟨S64x512x400, .f32⟩
  | .hbm, ⟨26, _⟩ => ⟨S64x512x400, .f32⟩
  | .hbm, ⟨27, _⟩ => ⟨S64x512x400, .f32⟩
  | .hbm, ⟨28, _⟩ => ⟨S_, .f32⟩
  | .hbm, ⟨29, _⟩ => ⟨S64x512x400, .f32⟩
  | .hbm, ⟨30, _⟩ => ⟨S64x512x400, .f32⟩
  | _, _ => ⟨S64x512x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S400 : S_.BroadcastsInDim S400 (![] : Fin 0 → Fin S400.rank)
  bcast_S400_S400x1_0 : S400.BroadcastsInDim S400x1 (![0] : Fin 1 → Fin S400x1.rank)
  bcast_S_S64x512x400 : S_.BroadcastsInDim S64x512x400 (![] : Fin 0 → Fin S64x512x400.rank)
  gather_S64x512x4000_S400x1_S64x512x400_01_2_n_n_2_1_645121_wf : GatherDims.WF S64x512x4000 S400x1 S64x512x400 [0, 1] [2] [] [2] [] 1 ![64, 512, 1]

variable [Facts₀]

def gather_S64x512x4000_S400x1_S64x512x400_01_2_n_n_2_1_645121 : GatherDims S64x512x4000 S400x1 S64x512x400 where
  offsetDims := [0, 1]
  collapsedSliceDims := [2]
  operandBatchingDims := []
  startIndicesBatchingDims := []
  startIndexMap := [2]
  indexVectorDim := 1
  sliceSizes := ![64, 512, 1]
  wf := gather_S64x512x4000_S400x1_S64x512x400_01_2_n_n_2_1_645121_wf

class Facts : Prop extends Facts₀ where

variable [Facts]
-- ==== Proof.Spec.lean ====
/-
  The windowed return, as one function of the input array.

  The time axis of length 4000 is cut into 400 consecutive windows of length 10; window `k` begins at position
  `10 k` and ends at position `10 k + 9`. For a series `X[a, b, ·]` the return of window `k` is

      ret X (a, b, k) = (X[a, b, 10 k + 9] − X[a, b, 10 k]) / X[a, b, 10 k] − 1,

  read on the extended reals with the exact subtraction and the exact quotient. Both programs compute exactly this
  expression, entry by entry, so no law of the extended reals is needed to join them: the whole proof is about WHICH
  entries of `X` each side reads.
-/
import Idealize.ShloMosaic.PureOps.Ideal
import Idealize.ShloMosaic.Lib.ValueIdx

noncomputable section

namespace Cert.Windows

open Idealize.ShloMosaic Idealize.ShloMosaic.ValueIdx

/-- Where window `k` begins on the time axis. -/
def firstAt (k : Fin 400) : Fin 4000 := ⟨10 * k.val, by omega⟩

/-- Where window `k` ends on the time axis. -/
def lastAt (k : Fin 400) : Fin 4000 := ⟨10 * k.val + 9, by omega⟩

theorem firstAt_val (k : Fin 400) : (firstAt k).val = 10 * k.val := rfl
theorem lastAt_val (k : Fin 400) : (lastAt k).val = 10 * k.val + 9 := rfl

/-- The entry of `X` at which window `i 2` of series `(i 0, i 1)` begins. -/
def firstOf (X : (⟨3, ![64, 512, 4000]⟩ : Shape).Idx → Elt Ideal .f32) : (⟨3, ![64, 512, 400]⟩ : Shape).Idx → Elt Ideal .f32 :=
  fun i => X (ix3 (n0 := 64) (n1 := 512) (n2 := 4000) (i 0) (i 1) (firstAt (i 2)))

/-- The entry of `X` at which window `i 2` of series `(i 0, i 1)` ends. -/
def lastOf (X : (⟨3, ![64, 512, 4000]⟩ : Shape).Idx → Elt Ideal .f32) : (⟨3, ![64, 512, 400]⟩ : Shape).Idx → Elt Ideal .f32 :=
  fun i => X (ix3 (n0 := 64) (n1 := 512) (n2 := 4000) (i 0) (i 1) (lastAt (i 2)))

/-- The return of every window of every series: `(last − first) / first − 1`. -/
def ret (X : (⟨3, ![64, 512, 4000]⟩ : Shape).Idx → Elt Ideal .f32) : (⟨3, ![64, 512, 400]⟩ : Shape).Idx → Elt Ideal .f32 :=
  fun i => FloatOps.subf (F := Ideal) (φ := .f32) (FloatOps.divf (F := Ideal) (φ := .f32) (FloatOps.subf (F := Ideal) (φ := .f32) (lastOf X i) (firstOf X i)) (firstOf X i)) (FloatOps.ofBits (F := Ideal) .f32 0x3F800000#32)

end Cert.Windows

end
-- ==== Proof.KernelValue.lean ====
/-
  The kernel computes `ret`.

  Before the grid runs, the host re-lays the input `X : [64, 512, 4000]` as `[64, 512, 400, 10]` (window, position in
  the window) and cuts out the two columns `0` and `9` of the last axis: the array of the windows' first elements,
  `(a, b, k) ↦ X[a, b, 10 k]`, and the array of their last elements, `(a, b, k) ↦ X[a, b, 10 k + 9]`, because the
  row-major position of `(a, b, k, e)` in the re-laid array is that of `(a, b, 10 k + e)` in `X`.

  The grid has `64 × 2` points; point `(p, q)` takes block `[p, 256 q .. 256 q + 255, 0 .. 399]` of each of the two
  arrays and of the output, and the body writes, entry by entry of the block, `(last − first) / first − 1`. The three
  windows move together, so entry `y` of the output block is `ret X` at the array index under `y`; the 128 blocks
  tile the output, so after the run the output array is `ret X`.
-/
import proofs.«417872_j47596827574815_3_alg».proof.Proof.Gen.KernelIdeal.Value
import proofs.«417872_j47596827574815_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Cert.KernelIdeal.Value
open Idealize.ShloMosaic Idealize.ShloMosaic.TcCoe Idealize.SL.Sem Idealize.ShloMosaic.ValueIdx Cert.Windows
open Idealize.ShloMosaic.Pipeline (Dat)

/-! ## The host's two columns -/

/-- Column `o` of the input re-laid by windows, flattened back to `[64, 512, 400]`, at `(a, b, k)`: the input at
    position `10 k + o` of series `(a, b)`. -/
theorem column_apply {α : Type} (X : S64x512x4000.Idx → α) (o : Fin 10)
    (h1 : S64x512x4000.ShapeCasts S64x512x400x10) (h2 : S64x512x400x10.Slices ![0, 0, 0, o.val] S64x512x400x1)
    (h3 : S64x512x400x1.ShapeCasts S64x512x400) (a : Fin 64) (b : Fin 512) (k : Fin 400) :
    shapeCast S64x512x400 (extractStridedSlice S64x512x400x1 ![0, 0, 0, o.val] (shapeCast S64x512x400x10 X h1) h2) h3
        (ix3 a b k)
      = X (ix3 a b ⟨10 * k.val + o.val, by omega⟩) := by
  have ha : a.val < 64 := a.isLt
  have hb : b.val < 512 := b.isLt
  have hk : k.val < 400 := k.isLt
  have ho : o.val < 10 := o.isLt
  refine (shapeCast_apply _ h3 (ix3 a b k) (ix4 a b k (⟨0, Nat.one_pos⟩ : Fin 1)) ?_).trans ?_
  · rw [Shape.rowMajor_val_four, Shape.rowMajor_val_three]
    show ((a.val * 512 + b.val) * 400 + k.val) * 1 + 0 = (a.val * 512 + b.val) * 400 + k.val
    omega
  refine (extractStridedSlice_apply _ _ h2 (ix4 a b k (⟨0, Nat.one_pos⟩ : Fin 1)) (ix4 a b k o) ?_).trans ?_
  · intro ax
    match ax with
    | ⟨0, _⟩ => show a.val = 0 + a.val; omega
    | ⟨1, _⟩ => show b.val = 0 + b.val; omega
    | ⟨2, _⟩ => show k.val = 0 + k.val; omega
    | ⟨3, _⟩ => show o.val = o.val + 0; omega
  refine shapeCast_apply _ h1 (ix4 a b k o) (ix3 a b ⟨10 * k.val + o.val, by omega⟩) ?_
  rw [Shape.rowMajor_val_three, Shape.rowMajor_val_four]
  show (a.val * 512 + b.val) * 4000 + (10 * k.val + o.val) = ((a.val * 512 + b.val) * 400 + k.val) * 10 + o.val
  omega

variable (m : (ℓ : Loc nD τ sig) → Buf (Elt Ideal) ℓ) (ρ : Dev nD → PrngReg)

/-- The input array on core `c`, as launched. -/
abbrev xarr (c : Dev nD) : S64x512x4000.Idx → Elt Ideal .f32 := m ((c : Thread nD τ).loc main_arg0)

/-- The array window 0 is cut from holds the windows' first elements. -/
theorem firsts_eq (c : Dev nD) : (V m c main_v2 : S64x512x400.Idx → Elt Ideal .f32) = firstOf (xarr m c) := by
  have e : (V m c main_v2 : S64x512x400.Idx → Elt Ideal .f32)
      = shapeCast S64x512x400 (extractStridedSlice S64x512x400x1 ![0, 0, 0, 0]
          (shapeCast S64x512x400x10 (xarr m c) shapeCasts_S64x512x4000_S64x512x400x10)
          slices_S64x512x400x10_S64x512x400x1_0_0_0_0) shapeCasts_S64x512x400x1_S64x512x400 := by
    dsimp only [Gen.V, Gen.hostOps0]; after_results; rfl
  rw [e]
  funext i
  obtain ⟨a, b, k, rfl⟩ : ∃ (a : Fin 64) (b : Fin 512) (k : Fin 400), i = ix3 a b k := ⟨i 0, i 1, i 2, eq_ix3 i⟩
  exact column_apply (xarr m c) (0 : Fin 10) _ _ _ a b k

/-- The array window 1 is cut from holds the windows' last elements. -/
theorem lasts_eq (c : Dev nD) : (V m c main_v4 : S64x512x400.Idx → Elt Ideal .f32) = lastOf (xarr m c) := by
  have e : (V m c main_v4 : S64x512x400.Idx → Elt Ideal .f32)
      = shapeCast S64x512x400 (extractStridedSlice S64x512x400x1 ![0, 0, 0, 9]
          (shapeCast S64x512x400x10 (xarr m c) shapeCasts_S64x512x4000_S64x512x400x10)
          slices_S64x512x400x10_S64x512x400x1_0_0_0_9) shapeCasts_S64x512x400x1_S64x512x400 := by
    dsimp only [Gen.V, Gen.hostOps0]; after_results; rfl
  rw [e]
  funext i
  obtain ⟨a, b, k, rfl⟩ : ∃ (a : Fin 64) (b : Fin 512) (k : Fin 400), i = ix3 a b k := ⟨i 0, i 1, i 2, eq_ix3 i⟩
  exact column_apply (xarr m c) (9 : Fin 10) _ _ _ a b k

/-! ## What the body leaves in the output block -/

/-- Entry `y` of the output block, from the two input blocks (`x0` the first elements, `x1` the last):
    `(x1 y − x0 y) / x0 y − 1`. -/
theorem block_apply (x0 x1 : Vec Ideal S1x256x400 .f32) (y : S1x256x400.Idx) :
    out0_2 x0 x1 y
      = FloatOps.subf (F := Ideal) (φ := .f32) (FloatOps.divf (F := Ideal) (φ := .f32)
          (FloatOps.subf (F := Ideal) (φ := .f32) (x1 y) (x0 y)) (x0 y)) (FloatOps.ofBits (F := Ideal) .f32 0x3F800000#32) := by
  have hz : (![0, 0, 0] : Fin 3 → Nat) = fun _ => 0 := funext fun a => by fin_cases a <;> rfl
  have hy0 : (y 0).val < 1 := (y 0).isLt
  have h0 : ix2_0 y = y := by
    funext a; refine Fin.ext ?_
    match a with
    | ⟨0, _⟩ => show 0 = (y 0).val; omega
    | ⟨1, _⟩ => rfl
    | ⟨2, _⟩ => rfl
  have h1 : ix2_1 y = y := by
    funext a; refine Fin.ext ?_
    match a with
    | ⟨0, _⟩ => show 0 = (y 0).val; omega
    | ⟨1, _⟩ => rfl
    | ⟨2, _⟩ => rfl
  have h2 : ix2_2 y = y := by
    funext a; refine Fin.ext ?_
    match a with
    | ⟨0, _⟩ => show 0 = (y 0).val; omega
    | ⟨1, _⟩ => rfl
    | ⟨2, _⟩ => rfl
  unfold out0_2
  rw [canon2_eq]
  simp only [View.ld_unit_zero (S := S1x256x400) hz]
  show FloatOps.subf (F := Ideal) (φ := .f32) (FloatOps.divf (F := Ideal) (φ := .f32) (FloatOps.subf (F := Ideal) (φ := .f32)
      (x1 (ix2_0 y)) (x0 (ix2_1 y))) (x0 (ix2_2 y))) (Scalar.ofBits (F := Ideal) .f32 0x3F800000#32) = _
  rw [h0, h1, h2]

/-! ## Point `t` writes block `t` of `ret` -/

/-- The three windows move together over the grid, and the output's blocks stay inside `64 × 2 × 1` block positions. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = win0_2.index t (0 : Fin 3) ∧ win0_1.index t (1 : Fin 3) = win0_2.index t (1 : Fin 3)
    ∧ win0_1.index t (2 : Fin 3) = win0_2.index t (2 : Fin 3) :=
  (by decide +kernel : ∀ t : Fin grid0.N, _)

/-- Every block position of the output is some point's. -/
theorem idx_onto : ∀ (q0 : Fin 64) (q1 : Fin 2), ∃ t : Fin cfg0.N, win0_2.index t = ![q0.val, q1.val, 0] :=
  (by decide +kernel : ∀ (q0 : Fin 64) (q1 : Fin 2), ∃ t : Fin grid0.N, win0_2.index t = ![q0.val, q1.val, 0])

/-- WHAT POINT `t` WRITES BACK is block `t` of `ret` of the input. -/
theorem flushed_eq (c : Dev nD) (t : Fin cfg0.N) :
    (dats m 0 c).flushed 2 t = ((cfg0.win 2).blk t).view.read (Elt Ideal) (ret (xarr m c)) := by
  rw [Value.flushed2]
  obtain ⟨e0, e1, e2, e3, e4, e5⟩ := idx_facts t
  funext j
  show out0_2 (iblk m c 0 t) (iblk m c 1 t) j = ret (xarr m c) (((cfg0.win 2).blk t).view.emb j)
  rw [block_apply]
  have hj0 : (j 0).val < 1 := (j 0).isLt
  have hj1 : (j 1).val < 256 := (j 1).isLt
  have hj2 : (j 2).val < 400 := (j 2).isLt
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 400 + 1 * (j 2).val = win0_2.index t (2 : Fin 3) * 400 + 1 * (j 2).val; omega
  have h1 : ((cfg0.win 1).blk t).view.emb j = ((cfg0.win 2).blk t).view.emb j := by
    funext a; apply Fin.ext
    match a with
    | ⟨0, _⟩ => show win0_1.index t (0 : Fin 3) * 1 + 1 * (j 0).val = win0_2.index t (0 : Fin 3) * 1 + 1 * (j 0).val; omega
    | ⟨1, _⟩ => show win0_1.index t (1 : Fin 3) * 256 + 1 * (j 1).val = win0_2.index t (1 : Fin 3) * 256 + 1 * (j 1).val; omega
    | ⟨2, _⟩ => show win0_1.index t (2 : Fin 3) * 400 + 1 * (j 2).val = win0_2.index t (2 : Fin 3) * 400 + 1 * (j 2).val; omega
  show FloatOps.subf (F := Ideal) (φ := .f32) (FloatOps.divf (F := Ideal) (φ := .f32) (FloatOps.subf (F := Ideal) (φ := .f32)
        ((V m c main_v4 : S64x512x400.Idx → Elt Ideal .f32) (((cfg0.win 1).blk t).view.emb j))
        ((V m c main_v2 : S64x512x400.Idx → Elt Ideal .f32) (((cfg0.win 0).blk t).view.emb j)))
        ((V m c main_v2 : S64x512x400.Idx → Elt Ideal .f32) (((cfg0.win 0).blk t).view.emb j)))
      (FloatOps.ofBits (F := Ideal) .f32 0x3F800000#32) = _
  rw [h0, h1, firsts_eq, lasts_eq]
  rfl

/-! ## The blocks tile the output -/

/-- An index of the output is in point `t`'s block iff each coordinate is in the block's range on its axis. -/
theorem mem_blk (t : Fin cfg0.N) (i : S64x512x400.Idx) :
    i ∈ ((cfg0.win 2).blk t).view.set ↔ ∀ a : Fin 3, win0_2.index t a * S1x256x400.size a ≤ (i a).val
      ∧ (i a).val < win0_2.index t a * S1x256x400.size a + S1x256x400.size a := by
  show i ∈ ((View.whole main_v5).slice (win0_2.rect t)).set ↔ _
  rw [View.set_slice_whole, Rect.mem_set_unit]
  exact Iff.rfl

/-- Every output index lies in the block of the point at block position `(i 0, i 1 / 256, 0)`. -/
theorem cover (i : S64x512x400.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 400 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 400 ≤ (i 2).val ∧ (i 2).val < win0_2.index t (2 : Fin 3) * 400 + 400; omega

/-! ## The output array after the run -/

/-- After the run the output array is `ret` of the input. -/
theorem final (c : Dev nD) : (dats m 0 c).arrAt 2 cfg0.N = ret (xarr m c) :=
  (dats m 0 c).arrAt_eq_of_cover 2 (ret (xarr m c)) (fun t _ => flushed_eq m c t) cover

/-- Every weakly fair execution of the kernel's program ends with the output at `ret` of the input and the input
    unchanged. -/
theorem run : θ_run defs (onTc (τ := τ) (main (F := Ideal))) ⟨m, fun _ => 0, ρ⟩ fun r => ∀ c : Dev nD,
      r.2.mem ((c : Thread nD τ).loc main_v5) = ret (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelValue

end
-- ==== Proof.LibGatherLastAxis.lean ====
/-
  A gather along the LAST axis of a rank-3 array, read at an index.

  For an array `x : [A, B, N]` and a column of start indices `idx : [K, 1]`, the gather with offset axes `[0, 1]`,
  collapsed axis `2`, start index map `[2]`, index vector axis `1` and slices `[A, B, 1]` is `x[:, :, idx]`: its
  result `[A, B, K]` at `(a, b, k)` is `x` at `(a, b, s)`, where `s` is the start index `idx[k, 0]` read as a signed
  integer and clamped into `[0, N − 1]`. The first two coordinates pass through as offsets, the third is looked up.
-/
import Idealize.ShloMosaic.Lib.ValueIdx

noncomputable section

namespace Idealize.ShloMosaic.GatherLastAxis

open Idealize.ShloMosaic Idealize.ShloMosaic.ValueIdx

variable {α : Type}

/-- Those dimension numbers, for an operand `[A, B, N]`, start indices `[K, 1]` and a result `[A, B, K]`. -/
abbrev dims (A B N K : Nat)
    (wf : GatherDims.WF ⟨3, ![A, B, N]⟩ ⟨2, ![K, 1]⟩ ⟨3, ![A, B, K]⟩ [0, 1] [2] [] [2] [] 1 ![A, B, 1]) :
    GatherDims ⟨3, ![A, B, N]⟩ ⟨2, ![K, 1]⟩ ⟨3, ![A, B, K]⟩ where
  offsetDims := [0, 1]
  collapsedSliceDims := [2]
  operandBatchingDims := []
  startIndicesBatchingDims := []
  startIndexMap := [2]
  indexVectorDim := 1
  sliceSizes := ![A, B, 1]
  wf := wf

/-- THE GATHER READ AT `(a, b, k)`: the operand at `(a, b, s)`, `s` the start index `idx[k, 0]` read signed and clamped
    into `[0, N − 1]`. -/
theorem gather_apply {A B N K w : Nat} (hN : 0 < N)
    (wf : GatherDims.WF ⟨3, ![A, B, N]⟩ ⟨2, ![K, 1]⟩ ⟨3, ![A, B, K]⟩ [0, 1] [2] [] [2] [] 1 ![A, B, 1])
    (x : (⟨3, ![A, B, N]⟩ : Shape).Idx → α) (idx : IVec ⟨2, ![K, 1]⟩ w) (a : Fin A) (b : Fin B) (k : Fin K) :
    Host.gather (dims A B N K wf) x idx (ix3 a b k)
      = x (ix3 a b ⟨min (idx (ix2 k ⟨0, Nat.one_pos⟩)).toInt.toNat (N - 1), by omega⟩) := by
  unfold Host.gather
  congr 1
  funext ax
  refine Fin.ext ?_
  match ax with
  | ⟨0, _⟩ =>
    show (dims A B N K wf).start (ix3 a b k) idx 0 + (dims A B N K wf).batchCoord (ix3 a b k) 0
      + (dims A B N K wf).offCoord (ix3 a b k) 0 = a.val
    have hs : (dims A B N K wf).start (ix3 a b k) idx 0 = 0 := by
      unfold GatherDims.start
      rw [dif_neg (show ¬ (0 : Fin 3) ∈ ([2] : List (Fin 3)) by decide)]
    rw [GatherDims.batchCoord_eq_zero _ _ _ List.not_mem_nil, hs]
    unfold GatherDims.offCoord
    rw [dif_pos ((GatherDims.mem_sKept _ _).mpr ⟨(show ¬ (0 : Fin 3) ∈ ([2] : List (Fin 3)) by decide), List.not_mem_nil⟩)]
    simp only [Nat.zero_add, Nat.add_zero]
    rfl
  | ⟨1, _⟩ =>
    show (dims A B N K wf).start (ix3 a b k) idx 1 + (dims A B N K wf).batchCoord (ix3 a b k) 1
      + (dims A B N K wf).offCoord (ix3 a b k) 1 = b.val
    have hs : (dims A B N K wf).start (ix3 a b k) idx 1 = 0 := by
      unfold GatherDims.start
      rw [dif_neg (show ¬ (1 : Fin 3) ∈ ([2] : List (Fin 3)) by decide)]
    rw [GatherDims.batchCoord_eq_zero _ _ _ List.not_mem_nil, hs]
    unfold GatherDims.offCoord
    rw [dif_pos ((GatherDims.mem_sKept _ _).mpr ⟨(show ¬ (1 : Fin 3) ∈ ([2] : List (Fin 3)) by decide), List.not_mem_nil⟩)]
    simp only [Nat.zero_add, Nat.add_zero]
    rfl
  | ⟨2, _⟩ =>
    show (dims A B N K wf).start (ix3 a b k) idx 2 + (dims A B N K wf).batchCoord (ix3 a b k) 2
      + (dims A B N K wf).offCoord (ix3 a b k) 2 = min (idx (ix2 k ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (dims A B N K wf).startIndexMap from List.mem_singleton.mpr rfl)]
    have hsi : (dims A B N K wf).siIdx (ix3 a b k) ⟨List.idxOf (2 : Fin 3) (dims A B N K wf).startIndexMap,
        List.idxOf_lt_length_iff.2 (List.mem_singleton.mpr rfl)⟩ = ix2 k ⟨0, Nat.one_pos⟩ := by
      funext b'; refine Fin.ext ?_
      match b' with
      | ⟨0, _⟩ => rfl
      | ⟨1, _⟩ => rfl
    rw [hsi]
    rfl

end Idealize.ShloMosaic.GatherLastAxis

end
-- ==== Proof.RefValue.lean ====
/-
  The reference reads the windows' ends by two gathers along the time axis, and is `ret`.

  Its start indices are computed, not given: for window `k` the word `10 k` (the windows' stride times the window's
  number), and `10 k + 9` for the window's end. Both are non-negative, so the wrap of a negative index (adding 4000)
  is never taken, and both are at most 3999, so the clamp of the gather leaves them as they are. Hence the first gather
  reads `X[a, b, 10 k]`, the second `X[a, b, 10 k + 9]`, and the reference's last stage is
  `(last − first) / first − 1` of those two entries: `ret X`. The host's quotient and the vector quotient are the
  same exact quotient on the extended reals.
-/
import proofs.«417872_j47596827574815_3_alg».proof.Proof.Gen.ReferenceIdeal.Read
import proofs.«417872_j47596827574815_3_alg».proof.Proof.Spec
import proofs.«417872_j47596827574815_3_alg».proof.Proof.LibGatherLastAxis

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherLastAxis Cert.Windows

/-- The start index of window `k`'s first element, as the program computes it: `10 k`, kept by the sign test. -/
theorem first_word (k : Fin 400) :
    val_main_v8 (F := Ideal) (ix2 k ⟨0, Nat.one_pos⟩)
      = Scalar.select (IntOp.cmpi .slt (IntOp.muli (BitVec.ofNat 32 k.val) 10#32) 0#32)
          (IntOp.addi (IntOp.muli (BitVec.ofNat 32 k.val) 10#32) 4000#32) (IntOp.muli (BitVec.ofNat 32 k.val) 10#32) := by
  rw [val_main_v8_apply, val_main_v7_apply, val_main_v4_apply, val_main_v6_apply, val_main_v2_apply, val_main_v0_apply,
    val_main_v1_apply, val_main_c_apply, val_main_v3_apply, val_main_c_0_apply, val_main_v5_apply, val_main_c_1_apply]

/-- Read signed and clamped into the time axis, that word is the position `10 k`. -/
theorem first_start : ∀ k : Fin 400,
    min (Scalar.select (IntOp.cmpi .slt (IntOp.muli (BitVec.ofNat 32 k.val) 10#32) 0#32)
          (IntOp.addi (IntOp.muli (BitVec.ofNat 32 k.val) 10#32) 4000#32) (IntOp.muli (BitVec.ofNat 32 k.val) 10#32)).toInt.toNat (4000 - 1)
      = 10 * k.val := by
  decide +kernel

/-- The start index of window `k`'s last element, as the program computes it: `10 k + 9`, kept by the sign test. -/
theorem last_word (k : Fin 400) :
    val_main_v17 (F := Ideal) (ix2 k ⟨0, Nat.one_pos⟩)
      = Scalar.select (IntOp.cmpi .slt (IntOp.addi (IntOp.muli (BitVec.ofNat 32 k.val) 10#32) 9#32) 0#32)
          (IntOp.addi (IntOp.addi (IntOp.muli (BitVec.ofNat 32 k.val) 10#32) 9#32) 4000#32)
          (IntOp.addi (IntOp.muli (BitVec.ofNat 32 k.val) 10#32) 9#32) := by
  rw [val_main_v17_apply, val_main_v16_apply, val_main_v13_apply, val_main_v15_apply, val_main_v11_apply, val_main_v2_apply,
    val_main_v0_apply, val_main_v1_apply, val_main_c_apply, val_main_v10_apply, val_main_c_2_apply, val_main_v12_apply,
    val_main_c_3_apply, val_main_v14_apply, val_main_c_4_apply]

/-- Read signed and clamped into the time axis, that word is the position `10 k + 9`. -/
theorem last_start : ∀ k : Fin 400,
    min (Scalar.select (IntOp.cmpi .slt (IntOp.addi (IntOp.muli (BitVec.ofNat 32 k.val) 10#32) 9#32) 0#32)
          (IntOp.addi (IntOp.addi (IntOp.muli (BitVec.ofNat 32 k.val) 10#32) 9#32) 4000#32)
          (IntOp.addi (IntOp.muli (BitVec.ofNat 32 k.val) 10#32) 9#32)).toInt.toNat (4000 - 1)
      = 10 * k.val + 9 := by
  decide +kernel

/-- The first gather reads each window's first element. -/
theorem first_read (X : (⟨S64x512x4000, .f32⟩ : BufTy).Contents (Elt Ideal)) : val_main_v9 (F := Ideal) X = firstOf X := by
  funext i
  obtain ⟨a, b, k, rfl⟩ : ∃ (a : Fin 64) (b : Fin 512) (k : Fin 400), i = ix3 a b k := ⟨i 0, i 1, i 2, eq_ix3 i⟩
  unfold val_main_v9
  show Host.gather (dims 64 512 4000 400 gather_S64x512x4000_S400x1_S64x512x400_01_2_n_n_2_1_645121_wf) X
    (val_main_v8 (F := Ideal)) (ix3 a b k) = _
  rw [gather_apply (by decide) _ X _ a b k]
  show X _ = X (ix3 a b (firstAt k))
  congr 1
  funext ax
  refine Fin.ext ?_
  match ax with
  | ⟨0, _⟩ => rfl
  | ⟨1, _⟩ => rfl
  | ⟨2, _⟩ =>
    show min (val_main_v8 (F := Ideal) (ix2 k ⟨0, Nat.one_pos⟩)).toInt.toNat (4000 - 1) = 10 * k.val
    rw [first_word, first_start]

/-- The second gather reads each window's last element. -/
theorem last_read (X : (⟨S64x512x4000, .f32⟩ : BufTy).Contents (Elt Ideal)) : val_main_v18 (F := Ideal) X = lastOf X := by
  funext i
  obtain ⟨a, b, k, rfl⟩ : ∃ (a : Fin 64) (b : Fin 512) (k : Fin 400), i = ix3 a b k := ⟨i 0, i 1, i 2, eq_ix3 i⟩
  unfold val_main_v18
  show Host.gather (dims 64 512 4000 400 gather_S64x512x4000_S400x1_S64x512x400_01_2_n_n_2_1_645121_wf) X
    (val_main_v17 (F := Ideal)) (ix3 a b k) = _
  rw [gather_apply (by decide) _ X _ a b k]
  show X _ = X (ix3 a b (lastAt k))
  congr 1
  funext ax
  refine Fin.ext ?_
  match ax with
  | ⟨0, _⟩ => rfl
  | ⟨1, _⟩ => rfl
  | ⟨2, _⟩ =>
    show min (val_main_v17 (F := Ideal) (ix2 k ⟨0, Nat.one_pos⟩)).toInt.toNat (4000 - 1) = 10 * k.val + 9
    rw [last_word, last_start]

/-- THE REFERENCE IS `ret`: its last stage, entry by entry, is `(last − first) / first − 1` of the two gathered entries. -/
theorem result_eq (X : (⟨S64x512x4000, .f32⟩ : BufTy).Contents (Elt Ideal)) : val_main_v22 (F := Ideal) X = ret X := by
  funext i
  rw [val_main_v22_apply, val_main_v20_apply, val_main_v19_apply, val_main_v21_apply, val_main_cst_apply, first_read, last_read]
  rfl

end Cert.ReferenceIdeal.RefValue

end
-- ==== Proof.lean ====
/-
  The windowed return of a time series: the blocked kernel against two gathers.

  The input `X : [64, 512, 4000]` holds 64 × 512 series of length 4000, cut into 400 consecutive windows of length 10.
  The result `[64, 512, 400]` is, for every window `k` of every series `(a, b)`,

      ret X (a, b, k) = (X[a, b, 10 k + 9] − X[a, b, 10 k]) / X[a, b, 10 k] − 1 .

  The kernel's program re-lays `X` by windows, cuts out the columns of the windows' first and last elements, and a
  grid of 64 × 2 points computes the expression block by block (Proof/KernelValue.lean). The reference gathers the same
  two columns along the time axis at the computed positions `10 k` and `10 k + 9`, which the sign test and the clamp
  of a gather leave unchanged, and applies the same expression (Proof/RefValue.lean, over Proof/LibGatherLastAxis.lean).
  Both end at `ret X` (Proof/Spec.lean), with the same exact subtraction and quotient on the extended reals and the
  same literal 1, so they agree on every input: finiteness of `X` is not used, and no law of arithmetic is needed —
  only which entries of `X` each side reads.

  The frames are the generated ones; the reference's is its run with the result dropped. The ideal pass rewrote nothing
  in the kernel, so there is nothing to preserve.
-/
import proofs.«417872_j47596827574815_3_alg».proof.Defs
import proofs.«417872_j47596827574815_3_alg».proof.Proof.Gen.Kernel
import proofs.«417872_j47596827574815_3_alg».proof.Proof.Gen.Kernel.Skeleton
import proofs.«417872_j47596827574815_3_alg».proof.Proof.Gen.Kernel.Launch
import proofs.«417872_j47596827574815_3_alg».proof.Proof.Gen.Kernel.Points
import proofs.«417872_j47596827574815_3_alg».proof.Proof.Gen.Kernel.Frame
import proofs.«417872_j47596827574815_3_alg».proof.Proof.Gen.KernelIdeal
import proofs.«417872_j47596827574815_3_alg».proof.Proof.Gen.KernelIdeal.Skeleton
import proofs.«417872_j47596827574815_3_alg».proof.Proof.Gen.KernelIdeal.Launch
import proofs.«417872_j47596827574815_3_alg».proof.Proof.Gen.KernelIdeal.Points
import proofs.«417872_j47596827574815_3_alg».proof.Proof.Gen.KernelIdeal.Frame
import proofs.«417872_j47596827574815_3_alg».proof.Proof.Gen.ReferenceIdeal
import proofs.«417872_j47596827574815_3_alg».proof.Proof.Gen.KernelIdeal.Value
import proofs.«417872_j47596827574815_3_alg».proof.Proof.Gen.ReferenceIdeal.Run
import proofs.«417872_j47596827574815_3_alg».proof.Proof.Gen.ReferenceIdeal.Read
import proofs.«417872_j47596827574815_3_alg».proof.Proof.Gen.Pre_finite_inputs
import proofs.«417872_j47596827574815_3_alg».proof.Proof.Spec
import proofs.«417872_j47596827574815_3_alg».proof.Proof.KernelValue
import proofs.«417872_j47596827574815_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs to its result with the input unchanged; the frame keeps the second half. -/
theorem frame_ri : Cert.frame_ReferenceIdeal := fun m ρ _ =>
  (θ_run Cert.ReferenceIdeal.defs _ _).mono (fun _ h c => (h c).2) (Cert.ReferenceIdeal.Value.run (F := Ideal) m ρ)

/-- From inputs that agree, the kernel's output array and the reference's result are both `ret` of the input. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
